-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096 : Shape := ⟨2, ![16, 4096]⟩
abbrev S11008x4096 : Shape := ⟨2, ![11008, 4096]⟩
abbrev S11008x128 : Shape := ⟨2, ![11008, 128]⟩
abbrev S11008 : Shape := ⟨1, ![11008]⟩
abbrev S_ : Shape := ⟨0, ![]⟩

class Facts : Prop where
  bcast_S_S16x4096 : S_.BroadcastsInDim S16x4096 (![] : Fin 0 → Fin S16x4096.rank)
  reducesTo_S16x4096_S_d0_1 : S16x4096.ReducesTo [0, 1] S_
  h_S_ : 0 < S_.numel
  bcast_S_S11008x128 : S_.BroadcastsInDim S11008x128 (![] : Fin 0 → Fin S11008x128.rank)
  reducesTo_S11008x128_S_d0_1 : S11008x128.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S16x4096 .f32) (main_arg1 : IVec S11008x4096 32) (main_arg2 : FVec F S11008x128 .f32) (main_arg3 : FVec F S11008 .f32) : IVec S_ 1 :=
  let main_v0 : FVec F S16x4096 .f32 := Host.absf main_arg0
  let main_cst : FVec F S_ .f32 := constant S_ .f32 0x7F800000#32
  let main_v1 : FVec F S16x4096 .f32 := broadcastInDim S16x4096 ![] bcast_S_S16x4096 main_cst
  let main_v2 : IVec S16x4096 1 := cmpf .olt main_v0 main_v1
  let main_c : IVec S_ 1 := constantI S_ 1 1#1
  let main_v3 : IVec S_ 1 := (fun x v => Host.reduce IntOp.andi x v reducesTo_S16x4096_S_d0_1 h_S_) main_v2 main_c
  let main_v4 : FVec F S11008x128 .f32 := Host.absf main_arg2
  let main_cst_0 : FVec F S_ .f32 := constant S_ .f32 0x7F800000#32
  let main_v5 : FVec F S11008x128 .f32 := broadcastInDim S11008x128 ![] bcast_S_S11008x128 main_cst_0
  let main_v6 : IVec S11008x128 1 := cmpf .olt main_v4 main_v5
  let main_c_1 : IVec S_ 1 := constantI S_ 1 1#1
  let main_v7 : IVec S_ 1 := (fun x v => Host.reduce IntOp.andi x v reducesTo_S11008x128_S_d0_1 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S16x4096 : Shape := ⟨2, ![16, 4096]⟩
abbrev S11008x4096 : Shape := ⟨2, ![11008, 4096]⟩
abbrev S11008x128 : Shape := ⟨2, ![11008, 128]⟩
abbrev S11008 : Shape := ⟨1, ![11008]⟩
abbrev S16x11008 : Shape := ⟨2, ![16, 11008]⟩
abbrev S256x4096 : Shape := ⟨2, ![256, 4096]⟩
abbrev S256x128 : Shape := ⟨2, ![256, 128]⟩
abbrev S256 : Shape := ⟨1, ![256]⟩
abbrev S16x256 : Shape := ⟨2, ![16, 256]⟩
abbrev S128x4096 : Shape := ⟨2, ![128, 4096]⟩
abbrev S1x256 : Shape := ⟨2, ![1, 256]⟩

abbrev nBuf : Space → Nat
  | .hbm => 5
  | .vmem => 9
  | .smem => 0
  | _ => 0

abbrev bufTy : (tb : Table) → Fin (tcTables nBuf tb) → BufTy
  | .hbm, ⟨0, _⟩ => ⟨S16x4096, .f32⟩
  | .hbm, ⟨1, _⟩ => ⟨S11008x4096, .i32⟩
  | .hbm, ⟨2, _⟩ => ⟨S11008x128, .f32⟩
  | .hbm, ⟨3, _⟩ => ⟨S11008, .f32⟩
  | .hbm, ⟨4, _⟩ => ⟨S16x11008, .f32⟩
  | .local _ .vmem, ⟨0, _⟩ => ⟨S16x4096, .f32⟩
  | .local _ .vmem, ⟨1, _⟩ => ⟨S256x4096, .i32⟩
  | .local _ .vmem, ⟨2, _⟩ => ⟨S256x4096, .i32⟩
  | .local _ .vmem, ⟨3, _⟩ => ⟨S256x128, .f32⟩
  | .local _ .vmem, ⟨4, _⟩ => ⟨S256x128, .f32⟩
  | .local _ .vmem, ⟨5, _⟩ => ⟨S256, .f32⟩
  | .local _ .vmem, ⟨6, _⟩ => ⟨S256, .f32⟩
  | .local _ .vmem, ⟨7, _⟩ => ⟨S16x256, .f32⟩
  | .local _ .vmem, ⟨8, _⟩ => ⟨S16x256, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  iota_S128x4096_d0_w32 : S128x4096.Iotas .tc 32 [0]
  iota_S128x4096_d1_w32 : S128x4096.Iotas .tc 32 [1]
  natLt_1_32 : 1 < 32
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S256x4096_S256x4096_0_0 : ∀ a, (![0, 0] : Fin 2 → Nat) a + S256x4096.size a ≤ S256x4096.size a
  h_S256x4096 : 0 < S256x4096.numel
  inb_S16x4096_S16x4096_0_0 : ∀ a, (![0, 0] : Fin 2 → Nat) a + S16x4096.size a ≤ S16x4096.size a
  h_S16x4096 : 0 < S16x4096.numel
  inb_S256_S256_0 : ∀ a, (![0] : Fin 1 → Nat) a + S256.size a ≤ S256.size a
  h_S256 : 0 < S256.numel
  shapeCasts_S256_S1x256 : S256.ShapeCasts S1x256
  broadcasts_S1x256_S16x256 : S1x256.Broadcasts S16x256
  inb_S16x256_S16x256_0_0 : ∀ a, (![0, 0] : Fin 2 → Nat) a + S16x256.size a ≤ S16x256.size a
  h_S16x256 : 0 < S16x256.numel
  dot_S256x128_S128x4096_S256x4096_1_0_0_1_n_n_wf : DotDims.WF S256x128 S128x4096 S256x4096 [1] [0] [0] [1] [] []
  dot_S16x4096_S256x4096_S16x256_1_1_0_0_n_n_wf : DotDims.WF S16x4096 S256x4096 S16x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x4096.size a ≤ S16x4096.size a
  hwx0_0 : ∀ i : grid0.Coords, EltTy.bits .f32 = 32 ∨ (Rect.block (s := S16x4096) S16x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S11008x128.size a
  hwx0_2 : ∀ i : grid0.Coords, EltTy.bits .f32 = 32 ∨ (Rect.block (s := S11008x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S11008.size a
  hwx0_3 : ∀ i : grid0.Coords, EltTy.bits .f32 = 32 ∨ (Rect.block (s := S11008) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x256.size a ≤ S16x11008.size a
  hwx0_4 : ∀ i : grid0.Coords, EltTy.bits .f32 = 32 ∨ (Rect.block (s := S16x11008) S16x256.size (cc0_transform_4 i) (hinb0_4 i)).WholeWords (EltTy.packing .f32)

variable [Facts₀]

def dot_S256x128_S128x4096_S256x4096_1_0_0_1_n_n : DotDims S256x128 S128x4096 S256x4096 where
  lhsContracting := [1]
  rhsContracting := [0]
  lhsNonContracting := [0]
  rhsNonContracting := [1]
  lhsBatch := []
  rhsBatch := []
  wf := dot_S256x128_S128x4096_S256x4096_1_0_0_1_n_n_wf
def dot_S16x4096_S256x4096_S16x256_1_1_0_0_n_n : DotDims S16x4096 S256x4096 S16x256 where
  lhsContracting := [1]
  rhsContracting := [1]
  lhsNonContracting := [0]
  rhsNonContracting := [0]
  lhsBatch := []
  rhsBatch := []
  wf := dot_S16x4096_S256x4096_S16x256_1_1_0_0_n_n_wf

abbrev win0_0 : Pipeline.Window sig grid0 :=
  Pipeline.Window.ofSpec (Memref.whole main_arg0) S16x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S16x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x4096 : Shape := ⟨2, ![16, 4096]⟩
abbrev S11008x4096 : Shape := ⟨2, ![11008, 4096]⟩
abbrev S11008x128 : Shape := ⟨2, ![11008, 128]⟩
abbrev S11008 : Shape := ⟨1, ![11008]⟩
abbrev S11008x128x32 : Shape := ⟨3, ![11008, 128, 32]⟩
abbrev S_ : Shape := ⟨0, ![]⟩
abbrev S11008x128x1 : Shape := ⟨3, ![11008, 128, 1]⟩
abbrev S4096x11008 : Shape := ⟨2, ![4096, 11008]⟩
abbrev S16x11008 : Shape := ⟨2, ![16, 11008]⟩
abbrev S1x11008 : Shape := ⟨2, ![1, 11008]⟩

abbrev nBuf : Space → Nat
  | .hbm => 18
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S11008x4096, .i32⟩
  | .hbm, ⟨2, _⟩ => ⟨S11008x128, .f32⟩
  | .hbm, ⟨3, _⟩ => ⟨S11008, .f32⟩
  | .hbm, ⟨4, _⟩ => ⟨S11008x128x32, .i32⟩
  | .hbm, ⟨5, _⟩ => ⟨S11008x128x32, .f32⟩
  | .hbm, ⟨6, _⟩ => ⟨S_, .f32⟩
  | .hbm, ⟨7, _⟩ => ⟨S11008x128x32, .f32⟩
  | .hbm, ⟨8, _⟩ => ⟨S11008x128x32, .f32⟩
  | .hbm, ⟨9, _⟩ => ⟨S11008x128x1, .f32⟩
  | .hbm, ⟨10, _⟩ => ⟨S11008x128x32, .f32⟩
  | .hbm, ⟨11, _⟩ => ⟨S11008x128x32, .f32⟩
  | .hbm, ⟨12, _⟩ => ⟨S11008x4096, .f32⟩
  | .hbm, ⟨13, _⟩ => ⟨S4096x11008, .f32⟩
  | .hbm, ⟨14, _⟩ => ⟨S16x11008, .f32⟩
  | .hbm, ⟨15, _⟩ => ⟨S1x11008, .f32⟩
  | .hbm, ⟨16, _⟩ => ⟨S16x11008, .f32⟩
  | .hbm, ⟨17, _⟩ => ⟨S16x11008, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  shapeCasts_S11008x4096_S11008x128x32 : S11008x4096.ShapeCasts S11008x128x32
  bcast_S_S11008x128x32 : S_.BroadcastsInDim S11008x128x32 (![] : Fin 0 → Fin S11008x128x32.rank)
  bcast_S11008x128_S11008x128x1_0_1 : S11008x128.BroadcastsInDim S11008x128x1 (![0, 1] : Fin 2 → Fin S11008x128x1.rank)
  bcast_S11008x128x1_S11008x128x32_0_1_2 : S11008x128x1.BroadcastsInDim S11008x128x32 (![0, 1, 2] : Fin 3 → Fin S11008x128x32.rank)
  shapeCasts_S11008x128x32_S11008x4096 : S11008x128x32.ShapeCasts S11008x4096
  transposes_S11008x4096_S4096x11008_1_0 : S11008x4096.Transposes [1, 0] S4096x11008
  bcast_S11008_S1x11008_1 : S11008.BroadcastsInDim S1x11008 (![1] : Fin 1 → Fin S1x11008.rank)
  bcast_S1x11008_S16x11008_0_1 : S1x11008.BroadcastsInDim S16x11008 (![0, 1] : Fin 2 → Fin S16x11008.rank)
  dot_S16x4096_S4096x11008_S16x11008_1_0_0_1_n_n_wf : DotDims.WF S16x4096 S4096x11008 S16x11008 [1] [0] [0] [1] [] []

variable [Facts₀]

def dot_S16x4096_S4096x11008_S16x11008_1_0_0_1_n_n : DotDims S16x4096 S4096x11008 S16x11008 where
  lhsContracting := [1]
  rhsContracting := [0]
  lhsNonContracting := [0]
  rhsNonContracting := [1]
  lhsBatch := []
  rhsBatch := []
  wf := dot_S16x4096_S4096x11008_S16x11008_1_0_0_1_n_n_wf

class Facts : Prop extends Facts₀ where

variable [Facts]
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.LibMatmulRowsAt.lean ====
/-
  A product of two matrices along their ROWS, into a zero accumulator, read at one entry over the extended reals.

  For dimension numbers that contract the second axis of BOTH operands, with no batch axis — the left operand read at
  (row, k), the right at (column, k): the product of the left matrix with the transpose of the right — the entry
  (p, q) of the product of an [A × K] and a [B × K] matrix is `∑ₖ l[p, k] · r[q, k]`. The four facts about where the
  dimension numbers read their operands are hypotheses, so that the lemma serves any printed record of this kind.
-/
import Idealize.ShloMosaic.PureOps.Ideal.Laws
import Idealize.ShloMosaic.Lib.ValueIdx

noncomputable section

namespace Idealize.ShloMosaic.MatmulRowsAt

open Idealize.ShloMosaic Idealize.ShloMosaic.ValueIdx

/-- Entry (p, q) of `l · rᵀ` accumulated into zero is the sum over the contracted axis of `l[p, k] · r[q, k]`, for
    dimension numbers `D` whose one contracted axis has extent `K` (`hr`, `hs`) and which read the left operand at
    (row, k) (`hl0`, `hl1`) and the right at (column, k) (`hr0`, `hr1`). -/
theorem matmul_rows_zero_at {A K B : Nat} {φ₁ φ₂ : FTy}
    (D : DotDims (⟨2, ![A, K]⟩ : Shape) (⟨2, ![B, K]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (i 1).val)
    (hr1 : ∀ (i : (⟨2, ![A, B]⟩ : Shape).Idx) (q : D.contr.Idx), (D.rhsIdx i q 1).val = (q ⟨0, by omega⟩).val)
    (prec : Option ContractPrecision) (l : FVec Ideal (⟨2, ![A, K]⟩ : Shape) φ₁) (r : FVec Ideal (⟨2, ![B, K]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 q k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end Idealize.ShloMosaic.MatmulRowsAt

end
-- ==== Proof.GroupIndicator.lean ====
/-
  The indicator of "column k lies in group g" as the kernel's integer chain computes it, one word at a time.

  The kernel builds a 0/1 matrix R[g, k] = 1 iff k // 32 = g from two index vectors. jnp's floor division of
  32-bit integers is printed as a round-toward-zero quotient corrected by one where the operands' signs differ and
  the remainder is not zero; on a non-negative dividend and the divisor 32 no correction is made, and the result is
  the natural-number quotient. Comparing it with the group's word, widening the bit and converting it to a float
  gives, over the extended reals, 1 where k / 32 = g and 0 elsewhere.
-/
import Idealize.ShloMosaic.PureOps.Ideal
import Idealize.ShloMosaic.Lib.ValueIdx
import Idealize.ShloMosaic.Lib.StableHlo.Predicate

noncomputable section

namespace Cert.GroupIndicator

open Idealize.ShloMosaic Idealize.ShloMosaic.ValueIdx

/-- Signed division of a non-negative word by 32 meets no corner, on any unit, and is the quotient of the values. -/
theorem divsi_32 (u : ArithUnit) (w : BitVec 32) (hw : w.toNat < 2 ^ 31) :
    IntOp.divsi u w 32#32 = BitVec.ofNat 32 (w.toNat / 32) := by
  have hcorner : ¬ IntOp.SDivCorner w 32#32 := by
    intro hc; rcases hc with hc | ⟨_, hc⟩ <;> exact absurd hc (by decide)
  have hm : w.msb = false := BitVec.msb_eq_false_iff_two_mul_lt.mpr (by omega)
  apply BitVec.eq_of_toNat_eq
  simp only [IntOp.divsi, if_neg hcorner, BitVec.sdiv_eq, hm, show (32#32 : BitVec 32).msb = false from by decide,
    BitVec.udiv_eq, BitVec.toNat_udiv, BitVec.toNat_ofNat, Nat.reducePow, Nat.reduceMod]
  omega

/-- jnp's floor division by 32 of a 32-bit word, as printed: the truncated quotient, less one where the sign of the
    dividend differs from the divisor's and the remainder is not zero. -/
def floorDiv32 (i : BitVec 32) : BitVec 32 :=
  Scalar.select
    (IntOp.andi
      (IntOp.cmpi .ne (IntOp.subi ((IntOp.cmpi .sgt i 0#32).setWidth 32) ((IntOp.cmpi .slt i 0#32).setWidth 32))
        (Scalar.subi (Scalar.extui (Scalar.cmpi .sgt 32#32 0#32)) (Scalar.extui (Scalar.cmpi .slt 32#32 0#32))))
      (IntOp.cmpi .ne (IntOp.remsi .vector i 32#32) 0#32))
    (IntOp.subi (IntOp.divsi .vector i 32#32) 1#32)
    (IntOp.divsi .vector i 32#32)

/-- On a non-negative word the correction is never made: the sign test fails for a positive dividend, and a zero
    dividend leaves no remainder. -/
theorem floorDiv32_eq (i : BitVec 32) (hi : i.toNat < 2 ^ 31) : floorDiv32 i = BitVec.ofNat 32 (i.toNat / 32) := by
  have hsel : IntOp.andi
      (IntOp.cmpi .ne (IntOp.subi ((IntOp.cmpi .sgt i 0#32).setWidth 32) ((IntOp.cmpi .slt i 0#32).setWidth 32))
        (Scalar.subi (Scalar.extui (Scalar.cmpi .sgt 32#32 0#32)) (Scalar.extui (Scalar.cmpi .slt 32#32 0#32))))
      (IntOp.cmpi .ne (IntOp.remsi .vector i 32#32) 0#32) = 0#1 := by
    by_cases h0 : i = 0#32
    · subst h0; decide
    · have hpos : 0 < i.toNat := by
        rcases Nat.eq_zero_or_pos i.toNat with h | h
        · exact absurd (BitVec.eq_of_toNat_eq (by simpa using h)) h0
        · exact h
      have hsgt : IntOp.cmpi .sgt i 0#32 = 1#1 :=
        (StableHlo.Predicate.sgt_iff_toNat hi (by decide)).mpr (by simpa using hpos)
      have hslt : IntOp.cmpi .slt i 0#32 = 0#1 :=
        eq_zero_of_ne_one fun h => by
          have := (StableHlo.Predicate.slt_iff_toNat hi (by decide)).mp h
          simp at this
      rw [hsgt, hslt]
      generalize IntOp.cmpi .ne (IntOp.remsi .vector i 32#32) 0#32 = r
      rcases BitVec.eq_zero_or_eq_one r with rfl | rfl <;> decide
  unfold floorDiv32
  rw [hsel, select_zero, divsi_32 _ _ hi]

/-- The widened comparison bit of two small words, read as a signed integer, is 1 where they are equal and 0 elsewhere. -/
theorem toInt_eq_bit (a b : BitVec 32) :
    ((IntOp.cmpi .eq a b).setWidth 32).toInt = if a = b then 1 else 0 := by
  by_cases h : a = b
  · rw [if_pos h, StableHlo.Predicate.cmpi_eq_iff.mpr h]; decide
  · rw [if_neg h, eq_zero_of_ne_one fun h' => h (StableHlo.Predicate.cmpi_eq_iff.mp h')]; decide

/-- THE INDICATOR: for a column `k < 2³¹` and a group `g < 2³²`, the chain — floor-divide the column's word by 32,
    compare with the group's word, widen, convert — is, over the extended reals, 1 where `k / 32 = g` and 0 elsewhere. -/
theorem indicator (k g : Nat) (hk : k < 2 ^ 31) (hg : g < 2 ^ 32) :
    FloatOps.sitofp (F := Ideal) .f32 ((IntOp.cmpi .eq (floorDiv32 (BitVec.ofNat 32 k)) (BitVec.ofNat 32 g)).setWidth 32)
      = if k / 32 = g then (1 : EReal) else 0 := by
  have hkn : (BitVec.ofNat 32 k).toNat = k := by rw [BitVec.toNat_ofNat]; exact Nat.mod_eq_of_lt (by omega)
  show (((((IntOp.cmpi .eq (floorDiv32 (BitVec.ofNat 32 k)) (BitVec.ofNat 32 g)).setWidth 32).toInt : ℤ) : ℝ) : EReal) = _
  rw [toInt_eq_bit, floorDiv32_eq _ (by rw [hkn]; exact hk), hkn]
  have hiff : (BitVec.ofNat 32 (k / 32) = BitVec.ofNat 32 g) ↔ k / 32 = g := by
    constructor
    · intro h
      have := congrArg BitVec.toNat h
      rw [BitVec.toNat_ofNat, BitVec.toNat_ofNat, Nat.mod_eq_of_lt (by omega), Nat.mod_eq_of_lt hg] at this
      exact this
    · intro h; rw [h]
  by_cases h : k / 32 = g
  · rw [if_pos (hiff.mpr h), if_pos h]; norm_num
  · rw [if_neg (fun h' => h (hiff.mp h')), if_neg h]; norm_num

end Cert.GroupIndicator

end
-- ==== Proof.Spec.lean ====
/-
  The specification: a linear layer over block-quantized weights, as one function of the argument arrays.

  The weights are stored as integer codes q[o, k] (o < 11008 output features, k < 4096 input features) with one
  scale s[o, g] per group of 32 consecutive input features (g = k / 32 < 128); the weight is
  w[o, k] = (q[o, k] − 128) · s[o, k / 32], and the layer maps activations x[t, ·] (t < 16 tokens) to
      y[t, o] = (∑ₖ x[t, k] · w[o, k]) + bias[o].
  Floats are extended reals here, the code's conversion to a float exact, and 128 the value of its float pattern.
-/
import Idealize.ShloMosaic.PureOps.Ideal
import Idealize.ShloMosaic.Lib.ValueIdx

noncomputable section

namespace Cert.QuantLinear

open Idealize.ShloMosaic Idealize.ShloMosaic.ValueIdx

/-- The group of 32 input features that feature `k` lies in. -/
abbrev grp (k : Fin 4096) : Fin 128 := ⟨k.val / 32, by have := k.isLt; omega⟩

/-- One dequantized weight times one activation: `x · ((code − 128) · scale)`. -/
abbrev term (x : EReal) (code : BitVec 32) (scale : EReal) : EReal :=
  x * ((FloatOps.sitofp (F := Ideal) .f32 code - Ideal.ofBits .f32 0x43000000#32) * scale)

/-- y[t, o] = (∑ₖ x[t, k] · ((q[o, k] − 128) · s[o, k / 32])) + bias[o]. -/
def linear (x : (⟨2, ![16, 4096]⟩ : Shape).Idx → EReal) (q : (⟨2, ![11008, 4096]⟩ : Shape).Idx → BitVec 32)
    (s : (⟨2, ![11008, 128]⟩ : Shape).Idx → EReal) (bias : (⟨1, ![11008]⟩ : Shape).Idx → EReal) :
    (⟨2, ![16, 11008]⟩ : Shape).Idx → EReal :=
  fun j => (∑ k : Fin 4096, term (x (ix2 (j 0) k)) (q (ix2 (j 1) k)) (s (ix2 (j 1) (grp k)))) + bias (ix1 (j 1))

theorem linear_apply (x : (⟨2, ![16, 4096]⟩ : Shape).Idx → EReal) (q : (⟨2, ![11008, 4096]⟩ : Shape).Idx → BitVec 32)
    (s : (⟨2, ![11008, 128]⟩ : Shape).Idx → EReal) (bias : (⟨1, ![11008]⟩ : Shape).Idx → EReal) (t : Fin 16) (o : Fin 11008) :
    linear x q s bias (ix2 t o)
      = (∑ k : Fin 4096, term (x (ix2 t k)) (q (ix2 o k)) (s (ix2 o (grp k)))) + bias (ix1 o) := rfl

end Cert.QuantLinear

end
-- ==== Proof.Payload.lean ====
/-
  The kernel body's product, read at one entry over the extended reals.

  The body expands the per-group scales [256 × 128] to per-column scales [256 × 4096] by a matrix product with a
  0/1 matrix R[g, k] = 1 iff k // 32 = g, dequantizes the codes — (code − 128) · scale — and multiplies the
  activations with the dequantized weights along their rows. Over the extended reals the roundings to bf16 are the
  identity, so: the expansion's entry (o, k) is the one scale of column k's group (every other term of its sum is
  a scale times 0, which is 0 on the extended reals whatever the scale), and the entry (p, o) of the result is
  `∑ₖ x[p, k] · ((code[o, k] − 128) · scale[o, k / 32])`.
-/
import proofs.«110561_j9758165696668_1_alg».proof.Proof.Gen.KernelIdeal.Skeleton
import proofs.«110561_j9758165696668_1_alg».proof.Proof.LibMatmulAt
import proofs.«110561_j9758165696668_1_alg».proof.Proof.LibMatmulRowsAt
import proofs.«110561_j9758165696668_1_alg».proof.Proof.GroupIndicator
import proofs.«110561_j9758165696668_1_alg».proof.Proof.Spec

noncomputable section

namespace Cert.KernelIdeal.Payload

open Cert.KernelIdeal Cert.KernelIdeal.Gen Idealize.ShloMosaic Idealize.ShloMosaic.ValueIdx Cert.QuantLinear

/-! ## Where the two products read their operands -/

theorem lhs_expand_0 (i : S256x4096.Idx) (q : dot_S256x128_S128x4096_S256x4096_1_0_0_1_n_n.contr.Idx) :
    (dot_S256x128_S128x4096_S256x4096_1_0_0_1_n_n.lhsIdx i q 0).val = (i 0).val := by
  unfold DotDims.lhsIdx
  rw [dif_neg (show ¬(0 : Fin S256x128.rank) ∈ dot_S256x128_S128x4096_S256x4096_1_0_0_1_n_n.lhsBatch by decide), dif_pos (show (0 : Fin S256x128.rank) ∈ dot_S256x128_S128x4096_S256x4096_1_0_0_1_n_n.lhsNonContracting by decide)]
  rfl
theorem lhs_expand_1 (i : S256x4096.Idx) (q : dot_S256x128_S128x4096_S256x4096_1_0_0_1_n_n.contr.Idx) :
    (dot_S256x128_S128x4096_S256x4096_1_0_0_1_n_n.lhsIdx i q 1).val = (q ⟨0, by decide⟩).val :=
  dot_S256x128_S128x4096_S256x4096_1_0_0_1_n_n.lhsIdx_val_of_single rfl i q
theorem rhs_expand_0 (i : S256x4096.Idx) (q : dot_S256x128_S128x4096_S256x4096_1_0_0_1_n_n.contr.Idx) :
    (dot_S256x128_S128x4096_S256x4096_1_0_0_1_n_n.rhsIdx i q 0).val = (q ⟨0, by decide⟩).val :=
  dot_S256x128_S128x4096_S256x4096_1_0_0_1_n_n.rhsIdx_val_of_single rfl i q
theorem rhs_expand_1 (i : S256x4096.Idx) (q : dot_S256x128_S128x4096_S256x4096_1_0_0_1_n_n.contr.Idx) :
    (dot_S256x128_S128x4096_S256x4096_1_0_0_1_n_n.rhsIdx i q 1).val = (i 1).val := by
  unfold DotDims.rhsIdx
  rw [dif_neg (show ¬(1 : Fin S128x4096.rank) ∈ dot_S256x128_S128x4096_S256x4096_1_0_0_1_n_n.rhsBatch by decide), dif_pos (show (1 : Fin S128x4096.rank) ∈ dot_S256x128_S128x4096_S256x4096_1_0_0_1_n_n.rhsNonContracting by decide)]
  rfl

theorem lhs_rows_0 (i : S16x256.Idx) (q : dot_S16x4096_S256x4096_S16x256_1_1_0_0_n_n.contr.Idx) :
    (dot_S16x4096_S256x4096_S16x256_1_1_0_0_n_n.lhsIdx i q 0).val = (i 0).val := by
  unfold DotDims.lhsIdx
  rw [dif_neg (show ¬(0 : Fin S16x4096.rank) ∈ dot_S16x4096_S256x4096_S16x256_1_1_0_0_n_n.lhsBatch by decide), dif_pos (show (0 : Fin S16x4096.rank) ∈ dot_S16x4096_S256x4096_S16x256_1_1_0_0_n_n.lhsNonContracting by decide)]
  rfl
theorem lhs_rows_1 (i : S16x256.Idx) (q : dot_S16x4096_S256x4096_S16x256_1_1_0_0_n_n.contr.Idx) :
    (dot_S16x4096_S256x4096_S16x256_1_1_0_0_n_n.lhsIdx i q 1).val = (q ⟨0, by decide⟩).val :=
  dot_S16x4096_S256x4096_S16x256_1_1_0_0_n_n.lhsIdx_val_of_single rfl i q
theorem rhs_rows_0 (i : S16x256.Idx) (q : dot_S16x4096_S256x4096_S16x256_1_1_0_0_n_n.contr.Idx) :
    (dot_S16x4096_S256x4096_S16x256_1_1_0_0_n_n.rhsIdx i q 0).val = (i 1).val := by
  unfold DotDims.rhsIdx
  rw [dif_neg (show ¬(0 : Fin S256x4096.rank) ∈ dot_S16x4096_S256x4096_S16x256_1_1_0_0_n_n.rhsBatch by decide), dif_pos (show (0 : Fin S256x4096.rank) ∈ dot_S16x4096_S256x4096_S16x256_1_1_0_0_n_n.rhsNonContracting by decide)]
  rfl
theorem rhs_rows_1 (i : S16x256.Idx) (q : dot_S16x4096_S256x4096_S16x256_1_1_0_0_n_n.contr.Idx) :
    (dot_S16x4096_S256x4096_S16x256_1_1_0_0_n_n.rhsIdx i q 1).val = (q ⟨0, by decide⟩).val :=
  dot_S16x4096_S256x4096_S16x256_1_1_0_0_n_n.rhsIdx_val_of_single rfl i q

/-! ## The 0/1 matrix of the groups -/

section
variable {F : FTy → Type} [FloatOps F]

/-- R[g, k]: the float of the bit "column k floor-divided by 32 is row g", as the body computes it from two index
    vectors (the floor division printed as the truncated quotient with its sign correction). -/
def groupMatrix : FVec F S128x4096 .bf16 :=
  have v0 : IVec S128x4096 32 := iota .tc S128x4096 32 [0] iota_S128x4096_d0_w32
  have v1 : IVec S128x4096 32 := iota .tc S128x4096 32 [1] iota_S128x4096_d1_w32
  have v2 : IVec S128x4096 32 := broadcast S128x4096 32#32
  have v3 : IVec S128x4096 32 := divsi v1 v2
  have v4 : IVec S128x4096 32 := broadcast S128x4096 0#32
  have v5 : IVec S128x4096 1 := cmpi .sgt v1 v4
  have v6 : IVec S128x4096 32 := extui 32 v5 natLt_1_32
  have v7 : IVec S128x4096 32 := broadcast S128x4096 0#32
  have v8 : IVec S128x4096 1 := cmpi .slt v1 v7
  have v9 : IVec S128x4096 32 := extui 32 v8 natLt_1_32
  have v10 : IVec S128x4096 32 := subi v6 v9
  let v11 : BitVec 1 := Scalar.cmpi .sgt 32#32 0#32
  let v12 : BitVec 32 := Scalar.extui v11
  let v13 : BitVec 1 := Scalar.cmpi .slt 32#32 0#32
  let v14 : BitVec 32 := Scalar.extui v13
  let v15 : BitVec 32 := Scalar.subi v12 v14
  have v16 : IVec S128x4096 32 := broadcast S128x4096 v15
  have v17 : IVec S128x4096 1 := cmpi .ne v10 v16
  have v18 : IVec S128x4096 32 := broadcast S128x4096 32#32
  have v19 : IVec S128x4096 32 := remsi v1 v18
  have v20 : IVec S128x4096 32 := broadcast S128x4096 0#32
  have v21 : IVec S128x4096 1 := cmpi .ne v19 v20
  have v22 : IVec S128x4096 1 := andi v17 v21
  have v23 : IVec S128x4096 32 := broadcast S128x4096 1#32
  have v24 : IVec S128x4096 32 := subi v3 v23
  have v25 : IVec S128x4096 32 := select v22 v24 v3
  have v26 : IVec S128x4096 1 := cmpi .eq v25 v0
  have v27 : IVec S128x4096 32 := extui 32 v26 natLt_1_32
  have v28 : FVec F S128x4096 .f32 := sitofp .f32 v27
  truncf .bf16 v28 bitsLt_bf16_f32

/-- The body's payload is the product along the rows of the activations with the dequantized weights, the scales
    expanded by the product with the groups' matrix. -/
theorem pay_eq (S : Vec F S256x128 .f32) (Q : Vec F S256x4096 .i32) (X : Vec F S16x4096 .f32) :
    k0_pay2 S Q X
      = matmul dot_S16x4096_S256x4096_S16x256_1_1_0_0_n_n none (truncf .bf16 X bitsLt_bf16_f32)
          (truncf .bf16 (mulf (subf (sitofp .f32 Q) (broadcast S256x4096 (Scalar.ofBits .f32 0x43000000#32)))
            (matmul dot_S256x128_S128x4096_S256x4096_1_0_0_1_n_n none (truncf .bf16 S bitsLt_bf16_f32) groupMatrix
              (constant S256x4096 .f32 0x00000000#32))) bitsLt_bf16_f32)
          (constant S16x256 .f32 0x00000000#32) := rfl

end

/-- Over the extended reals R[g, k] is 1 where column `k` lies in group `g` and 0 elsewhere. -/
theorem groupMatrix_apply (g : Fin 128) (k : Fin 4096) :
    groupMatrix (F := Ideal) (ix2 g k) = if k.val / 32 = g.val then (1 : EReal) else 0 := by
  show FloatOps.sitofp (F := Ideal) .f32 ((IntOp.cmpi .eq (GroupIndicator.floorDiv32 (BitVec.ofNat 32 (0 * 4096 + k.val)))
    (BitVec.ofNat 32 (0 * 128 + g.val))).setWidth 32) = _
  simp only [Nat.zero_mul, Nat.zero_add]
  exact GroupIndicator.indicator k.val g.val (by have := k.isLt; omega) (by have := g.isLt; omega)

/-- The expanded scale of row `o` at column `k` is the scale of `k`'s group: in `∑_g scale[o, g] · R[g, k]` one term is
    the scale times 1 and every other a scale times 0. -/
theorem expanded_at (S : Vec Ideal S256x128 .f32) (o : Fin 256) (k : Fin 4096) :
    matmul dot_S256x128_S128x4096_S256x4096_1_0_0_1_n_n none (truncf .bf16 S bitsLt_bf16_f32) (groupMatrix (F := Ideal))
        (constant S256x4096 .f32 0x00000000#32) (ix2 o k)
      = S (ix2 o (grp k)) := by
  refine (MatmulAt.matmul_zero_at dot_S256x128_S128x4096_S256x4096_1_0_0_1_n_n rfl rfl lhs_expand_0 lhs_expand_1
    rhs_expand_0 rhs_expand_1 none _ _ o k).trans ?_
  rw [Finset.sum_eq_single (grp k)]
  · rw [groupMatrix_apply, if_pos rfl]; exact mul_one _
  · intro g _ hg
    rw [groupMatrix_apply, if_neg (fun h => hg (Fin.ext h.symm))]; exact mul_zero _
  · intro h; exact absurd (Finset.mem_univ _) h

/-- THE PRODUCT AT AN ENTRY: row `p` of the activations against row `o` of the dequantized weights. -/
theorem product_at (S : Vec Ideal S256x128 .f32) (Q : Vec Ideal S256x4096 .i32) (X : Vec Ideal S16x4096 .f32) (p : Fin 16) (o : Fin 256) :
    k0_pay2 (F := Ideal) S Q X (ix2 p o)
      = ∑ k : Fin 4096, term (X (ix2 p k)) (Q (ix2 o k)) (S (ix2 o (grp k))) := by
  rw [pay_eq]
  refine (MatmulRowsAt.matmul_rows_zero_at dot_S16x4096_S256x4096_S16x256_1_1_0_0_n_n rfl rfl lhs_rows_0 lhs_rows_1
    rhs_rows_0 rhs_rows_1 none _ _ p o).trans ?_
  refine Finset.sum_congr rfl fun k _ => ?_
  exact congrArg (X (ix2 p k) * ·) (congrArg ((FloatOps.sitofp (F := Ideal) .f32 (Q (ix2 o k)) - Ideal.ofBits .f32 0x43000000#32) * ·)
    (expanded_at S o k))

end Cert.KernelIdeal.Payload

end
-- ==== Proof.KernelValue.lean ====
/-
  The kernel's result array is the specification.

  The grid has 43 points. Point t is handed all 16 rows of the activations, rows 256·t … 256·t + 255 of the codes
  and of the scales, entries 256·t … 256·t + 255 of the bias, and writes back columns 256·t … 256·t + 255 of the
  result. What it writes at (p, o) of its block is the product of row p of the activations with row o of its block
  of dequantized weights, plus entry o of its block of the bias: entry (p, 256·t + o) of the specification. The 43
  blocks of 256 columns cover the 11008 columns, so the array ends holding the specification.
-/
import proofs.«110561_j9758165696668_1_alg».proof.Proof.Gen.KernelIdeal.Value
import proofs.«110561_j9758165696668_1_alg».proof.Proof.Payload

noncomputable section

namespace Cert.KernelIdeal.KernelValue

open Cert.KernelIdeal Cert.KernelIdeal.Gen Idealize.ShloMosaic Idealize.ShloMosaic.TcCoe Idealize.ShloMosaic.ValueIdx Idealize.SL.Sem
open Idealize.ShloMosaic.Pipeline (Dat)
open Cert.QuantLinear

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a; rfl

/-! ## One block -/

/-- What the body leaves in the output block from its four input blocks, at (p, o): the row product plus the bias. -/
theorem block_at (x0 : Vec Ideal S16x4096 .f32) (x1 : Vec Ideal S256x4096 .i32) (x2 : Vec Ideal S256x128 .f32) (x3 : Vec Ideal S256 .f32)
    (p : Fin 16) (o : Fin 256) :
    out0_4 x0 x1 x2 x3 (ix2 p o)
      = (∑ k : Fin 4096, term (x0 (ix2 p k)) (x1 (ix2 o k)) (x2 (ix2 o (grp k)))) + x3 (ix1 o) := by
  unfold out0_4
  rw [Value.canon4_eq]
  simp only [View.ld_unit_zero (S := S256x128) zeros2, View.ld_unit_zero (S := S256x4096) zeros2,
    View.ld_unit_zero (S := S16x4096) zeros2, View.ld_unit_zero (S := S256) zeros1]
  have e0 : Value.ix4_0 (ix2 p o) = ix2 p o := funext fun a => Fin.ext (by
    match a with
    | ⟨0, _⟩ => rfl
    | ⟨1, _⟩ => rfl)
  have e1 : Value.ix4_1 (ix2 p o) = ix1 o := funext fun a => Fin.ext (by
    match a with
    | ⟨0, _⟩ => rfl)
  show k0_pay2 x2 x1 x0 (Value.ix4_0 (ix2 p o)) + x3 (Value.ix4_1 (ix2 p o)) = _
  rw [e0, e1, Payload.product_at]

/-! ## Where the blocks lie -/

/-- The printed index maps over the grid: the activations' window stays, the codes', scales' and bias's windows move
    down their rows with the point, the result's along its columns. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 1) = t.val
    ∧ win0_4.index t (0 : Fin 2) = 0 ∧ win0_4.index t (1 : Fin 2) = t.val ∧ t.val < 43 :=
  (by decide +kernel : ∀ t : Fin grid0.N, _)

/-- Every block of 256 columns is some point's. -/
theorem idx_onto : ∀ q : Fin 43, ∃ t : Fin cfg0.N, win0_4.index t = ![0, q.val] :=
  (by decide +kernel : ∀ q : Fin 43, ∃ t : Fin grid0.N, win0_4.index t = ![0, q.val])

/-- WHAT POINT `t` WRITES BACK is block `t` of the specification of the argument arrays. -/
theorem flushed_eq (c : Dev nD) (t : Fin cfg0.N) :
    (dats m 0 c).flushed 4 t
      = ((cfg0.win 4).blk t).view.read (Elt Ideal) (linear (V m c main_arg0) (V m c main_arg1) (V m c main_arg2) (V m c main_arg3)) := by
  rw [Value.flushed4]
  obtain ⟨a00, a01, a10, a11, a20, a21, a30, a40, a41, ht⟩ := idx_facts t
  funext y
  obtain ⟨p, o, rfl⟩ : ∃ (p : Fin 16) (o : Fin 256), y = ix2 p o := ⟨y 0, y 1, eq_ix2 y⟩
  have hp : p.val < 16 := p.isLt
  have ho : o.val < 256 := o.isLt
  show out0_4 (iblk m c 0 t) (iblk m c 1 t) (iblk m c 2 t) (iblk m c 3 t) (ix2 p o)
    = linear (V m c main_arg0) (V m c main_arg1) (V m c main_arg2) (V m c main_arg3) (((cfg0.win 4).blk t).view.emb (ix2 p o))
  refine (block_at (iblk m c 0 t) (iblk m c 1 t) (iblk m c 2 t) (iblk m c 3 t) p o).trans ?_
  have hemb : ((cfg0.win 4).blk t).view.emb (ix2 p o) = ix2 p (⟨t.val * 256 + o.val, by omega⟩ : Fin 11008) := by
    funext a; apply Fin.ext
    match a with
    | ⟨0, _⟩ => show win0_4.index t (0 : Fin 2) * 16 + 1 * p.val = p.val; omega
    | ⟨1, _⟩ => show win0_4.index t (1 : Fin 2) * 256 + 1 * o.val = t.val * 256 + o.val; omega
  rw [hemb, linear_apply]
  have hx : ∀ k : Fin 4096, iblk m c 0 t (ix2 p k) = V m c main_arg0 (ix2 p k) := fun k => by
    have hk : k.val < 4096 := k.isLt
    show V m c main_arg0 (((cfg0.win 0).blk t).view.emb (ix2 p k)) = V m c main_arg0 (ix2 p k)
    congr 1; funext a; apply Fin.ext
    match a with
    | ⟨0, _⟩ => show win0_0.index t (0 : Fin 2) * 16 + 1 * p.val = p.val; omega
    | ⟨1, _⟩ => show win0_0.index t (1 : Fin 2) * 4096 + 1 * k.val = k.val; omega
  have hq : ∀ k : Fin 4096, iblk m c 1 t (ix2 o k) = V m c main_arg1 (ix2 (⟨t.val * 256 + o.val, by omega⟩ : Fin 11008) k) := fun k => by
    have hk : k.val < 4096 := k.isLt
    show V m c main_arg1 (((cfg0.win 1).blk t).view.emb (ix2 o k)) = V m c main_arg1 (ix2 (⟨t.val * 256 + o.val, by omega⟩ : Fin 11008) k)
    congr 1; funext a; apply Fin.ext
    match a with
    | ⟨0, _⟩ => show win0_1.index t (0 : Fin 2) * 256 + 1 * o.val = t.val * 256 + o.val; omega
    | ⟨1, _⟩ => show win0_1.index t (1 : Fin 2) * 4096 + 1 * k.val = k.val; omega
  have hs : ∀ g : Fin 128, iblk m c 2 t (ix2 o g) = V m c main_arg2 (ix2 (⟨t.val * 256 + o.val, by omega⟩ : Fin 11008) g) := fun g => by
    have hg : g.val < 128 := g.isLt
    show V m c main_arg2 (((cfg0.win 2).blk t).view.emb (ix2 o g)) = V m c main_arg2 (ix2 (⟨t.val * 256 + o.val, by omega⟩ : Fin 11008) g)
    congr 1; funext a; apply Fin.ext
    match a with
    | ⟨0, _⟩ => show win0_2.index t (0 : Fin 2) * 256 + 1 * o.val = t.val * 256 + o.val; omega
    | ⟨1, _⟩ => show win0_2.index t (1 : Fin 2) * 128 + 1 * g.val = g.val; omega
  have hb : iblk m c 3 t (ix1 o) = V m c main_arg3 (ix1 (⟨t.val * 256 + o.val, by omega⟩ : Fin 11008)) := by
    show V m c main_arg3 (((cfg0.win 3).blk t).view.emb (ix1 o)) = V m c main_arg3 (ix1 (⟨t.val * 256 + o.val, by omega⟩ : Fin 11008))
    congr 1; funext a; apply Fin.ext
    match a with
    | ⟨0, _⟩ => show win0_3.index t (0 : Fin 1) * 256 + 1 * o.val = t.val * 256 + o.val; omega
  refine congrArg₂ (· + ·) (Finset.sum_congr rfl fun k _ => ?_) hb
  exact congr (congr (congrArg term (hx k)) (hq k)) (hs (grp k))

/-! ## The blocks cover the array -/

/-- An index of the array is in point `t`'s block iff each coordinate is in the block's range on its axis. -/
theorem mem_blk (t : Fin cfg0.N) (i : S16x11008.Idx) :
    i ∈ ((cfg0.win 4).blk t).view.set ↔ ∀ a : Fin 2, win0_4.index t a * S16x256.size a ≤ (i a).val ∧ (i a).val < win0_4.index t a * S16x256.size a + S16x256.size a := by
  show i ∈ ((View.whole main_v0).slice (win0_4.rect t)).set ↔ _
  rw [View.set_slice_whole, Rect.mem_set_unit]
  exact Iff.rfl

/-- Column `j` lies in the block of point `j / 256`. -/
theorem cover (i : S16x11008.Idx) : ∃ t : Fin cfg0.N, (cfg0.win 4).flush t = true ∧ i ∈ ((cfg0.win 4).blk t).view.set := by
  have hi0 : (i 0).val < 16 := (i 0).isLt
  have hi1 : (i 1).val < 11008 := (i 1).isLt
  obtain ⟨t, ht⟩ := idx_onto ⟨(i 1).val / 256, by omega⟩
  have q0 : win0_4.index t (0 : Fin 2) = 0 := congrFun ht 0
  have q1 : win0_4.index t (1 : Fin 2) = (i 1).val / 256 := congrFun ht 1
  refine ⟨t, flush0_4 t, ?_⟩
  rw [mem_blk]
  intro a
  match a with
  | ⟨0, _⟩ => show win0_4.index t (0 : Fin 2) * 16 ≤ (i 0).val ∧ (i 0).val < win0_4.index t (0 : Fin 2) * 16 + 16; omega
  | ⟨1, _⟩ => show win0_4.index t (1 : Fin 2) * 256 ≤ (i 1).val ∧ (i 1).val < win0_4.index t (1 : Fin 2) * 256 + 256; omega

/-- THE ARRAY after the run is the specification of the argument arrays. -/
theorem final (c : Dev nD) :
    (dats m 0 c).arrAt 4 cfg0.N
      = linear (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed_eq m c t) cover

/-! ## The run, read -/

/-- Every weakly fair execution of the kernel's program terminates with the result array at the specification of the
    arguments as launched, the arguments unchanged. -/
theorem run : θ_run defs (onTc (τ := τ) (main (F := Ideal))) ⟨m, fun _ => 0, ρ⟩ fun r => ∀ c : Dev nD,
      r.2.mem ((c : Thread nD τ).loc main_v0)
        = linear (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.KernelValue

end
-- ==== Proof.RefValue.lean ====
/-
  The reference's result is the specification.

  The reference reshapes the codes to [11008, 128, 32], converts and shifts them, multiplies by the scales broadcast
  along the last axis, reshapes back to [11008, 4096], transposes, and takes the host's matrix product with the
  activations, then adds the bias broadcast along the tokens. Read at an entry (t, o), through the generated
  one-operation-at-a-time lemmas, each layout operation is an index computation on literal shapes: flat position
  o · 4096 + k of the [11008, 128, 32] array is (o, k / 32, k % 32), so the weight read at (k, o) after the
  transpose is (q[o, k] − 128) · s[o, k / 32].
-/
import proofs.«110561_j9758165696668_1_alg».proof.Proof.Gen.ReferenceIdeal.Read
import proofs.«110561_j9758165696668_1_alg».proof.Proof.Spec

noncomputable section

namespace Cert.ReferenceIdeal.RefValue

open Cert.ReferenceIdeal Cert.ReferenceIdeal.Read Idealize.ShloMosaic Idealize.ShloMosaic.ValueIdx Cert.QuantLinear

/-- The weight the product reads at contraction position `k` for output feature `o`. -/
theorem weight_at (x1 : (⟨S11008x4096, .i32⟩ : BufTy).Contents (Elt Ideal)) (x2 : (⟨S11008x128, .f32⟩ : BufTy).Contents (Elt Ideal))
    (t : Fin 16) (o : Fin 11008) (k : Fin 4096) :
    val_main_v8 (F := Ideal) x1 x2 (ridx_main_v9 (ix2 t o) k)
      = (FloatOps.sitofp (F := Ideal) .f32 (x1 (ix2 o k)) - Ideal.ofBits .f32 0x43000000#32) * x2 (ix2 o (grp k)) := by
  have ho : o.val < 11008 := o.isLt
  have hk : k.val < 4096 := k.isLt
  rw [val_main_v8_apply, val_main_v7_apply, val_main_v6_apply, val_main_v3_apply, val_main_v1_apply, val_main_v0_apply,
    val_main_v2_apply, val_main_cst_apply, val_main_v5_apply, val_main_v4_apply]
  have eq : idx_main_v0 (idx_main_v7 (idx_main_v8 (ridx_main_v9 (ix2 t o) k))) = ix2 o k := funext fun a => Fin.ext (by
    match a with
    | ⟨0, _⟩ =>
      show (((o.val * 4096 + k.val) / 4096 * 128 + (o.val * 4096 + k.val) / 32 % 128) * 32 + (o.val * 4096 + k.val) % 32) / 4096 = o.val
      omega
    | ⟨1, _⟩ =>
      show (((o.val * 4096 + k.val) / 4096 * 128 + (o.val * 4096 + k.val) / 32 % 128) * 32 + (o.val * 4096 + k.val) % 32) % 4096 = k.val
      omega)
  have es : idx_main_v4 (idx_main_v5 (idx_main_v7 (idx_main_v8 (ridx_main_v9 (ix2 t o) k)))) = ix2 o (grp k) := funext fun a => Fin.ext (by
    match a with
    | ⟨0, _⟩ => show (o.val * 4096 + k.val) / 4096 = o.val; omega
    | ⟨1, _⟩ => show (o.val * 4096 + k.val) / 32 % 128 = k.val / 32; omega)
  rw [eq, es]
  rfl

/-- The reference's last stage, entry by entry, is the specification. -/
theorem result_eq (x0 : (⟨S16x4096, .f32⟩ : BufTy).Contents (Elt Ideal)) (x1 : (⟨S11008x4096, .i32⟩ : BufTy).Contents (Elt Ideal))
    (x2 : (⟨S11008x128, .f32⟩ : BufTy).Contents (Elt Ideal)) (x3 : (⟨S11008, .f32⟩ : BufTy).Contents (Elt Ideal)) :
    val_main_v12 (F := Ideal) x0 x1 x2 x3 = linear x0 x1 x2 x3 := by
  funext i
  obtain ⟨t, o, rfl⟩ : ∃ (t : Fin 16) (o : Fin 11008), i = ix2 t o := ⟨i 0, i 1, eq_ix2 i⟩
  rw [val_main_v12_apply, val_main_v9_apply, val_main_v11_apply, val_main_v10_apply, linear_apply]
  have el : ∀ k : Fin 4096, lidx_main_v9 (ix2 t o) k = ix2 t k := fun k => funext fun a => Fin.ext (by
    match a with
    | ⟨0, _⟩ => rfl
    | ⟨1, _⟩ => rfl)
  have eb : idx_main_v10 (idx_main_v11 (ix2 t o)) = ix1 o := funext fun a => Fin.ext (by
    match a with
    | ⟨0, _⟩ => rfl)
  rw [eb]
  refine congrArg (· + x3 (ix1 o)) (Finset.sum_congr rfl fun k _ => ?_)
  rw [el k, weight_at x1 x2 t o k]

end Cert.ReferenceIdeal.RefValue

end
-- ==== Proof.lean ====
/-
  A linear layer over block-quantized weights: the kernel against its reference, over the extended reals.

  Both programs compute y[t, o] = (∑ₖ x[t, k] · ((q[o, k] − 128) · s[o, k / 32])) + bias[o] for 16 tokens, 4096 input
  features in 128 groups of 32, and 11008 output features (Proof/Spec.lean).

  The kernel tiles the output features in 43 blocks of 256. In each it expands the block's per-group scales to
  per-column scales by a matrix product with the 0/1 matrix R[g, k] = [k // 32 = g], built from two index vectors
  by jnp's integer floor division; dequantizes; and multiplies the activations with the dequantized block along
  their rows, adding the bias. Over the extended reals the expansion's entry (o, k) is exactly s[o, k / 32]: one
  term of its sum is the scale times 1, every other a scale times 0 (Proof/GroupIndicator.lean for the integer
  chain, Proof/Payload.lean for the two products; the two general entry-of-a-product lemmas are Proof/LibMatmulAt.lean
  and Proof/LibMatmulRowsAt.lean). The roundings to bf16 before each product are the identity there. The blocks
  cover the result array (Proof/KernelValue.lean, over the generated blockwise value leg).

  The reference reshapes the codes into groups, scales, reshapes back, transposes and takes the host's matrix
  product; read at an entry through the generated one-operation-at-a-time lemmas it is the same sum
  (Proof/RefValue.lean, over the generated run).

  No algebraic law beyond x · 1 = x and x · 0 = 0 joins the two sides, and both hold at the infinities, so the
  finiteness of the inputs is never used. The frames are the generated ones; the ideal pass rewrote nothing, so
  there is nothing to preserve.
-/
import proofs.«110561_j9758165696668_1_alg».proof.Defs
import proofs.«110561_j9758165696668_1_alg».proof.Proof.Gen.Kernel
import proofs.«110561_j9758165696668_1_alg».proof.Proof.Gen.Kernel.Skeleton
import proofs.«110561_j9758165696668_1_alg».proof.Proof.Gen.Kernel.Launch
import proofs.«110561_j9758165696668_1_alg».proof.Proof.Gen.Kernel.Points
import proofs.«110561_j9758165696668_1_alg».proof.Proof.Gen.Kernel.Frame
import proofs.«110561_j9758165696668_1_alg».proof.Proof.Gen.KernelIdeal
import proofs.«110561_j9758165696668_1_alg».proof.Proof.Gen.KernelIdeal.Skeleton
import proofs.«110561_j9758165696668_1_alg».proof.Proof.Gen.KernelIdeal.Launch
import proofs.«110561_j9758165696668_1_alg».proof.Proof.Gen.KernelIdeal.Points
import proofs.«110561_j9758165696668_1_alg».proof.Proof.Gen.KernelIdeal.Frame
import proofs.«110561_j9758165696668_1_alg».proof.Proof.Gen.ReferenceIdeal
import proofs.«110561_j9758165696668_1_alg».proof.Proof.Gen.Pre_finite_inputs
import proofs.«110561_j9758165696668_1_alg».proof.Proof.Gen.KernelIdeal.Value
import proofs.«110561_j9758165696668_1_alg».proof.Proof.Gen.ReferenceIdeal.Run
import proofs.«110561_j9758165696668_1_alg».proof.Proof.Gen.ReferenceIdeal.Read
import proofs.«110561_j9758165696668_1_alg».proof.Proof.KernelValue
import proofs.«110561_j9758165696668_1_alg».proof.Proof.RefValue
import Idealize.ShloMosaic.Adequacy
import Idealize.ShloMosaic.Init

noncomputable section

namespace Cert.Proof

open Idealize.ShloMosaic Idealize.SL.Sem

/-- The word-level kernel runs and leaves its arguments unchanged: the generated frame. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments the kernel's result array ends at the specification of its arguments
    and the reference's at the specification of its own: one function of equal arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
